-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x8 : Shape := ⟨2, ![32, 8]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S32x256x64x64 .f32) (main_arg1 : FVec F S32x8 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  main_v8
-- ==== Kernel.lean ====
abbrev S32x256x64x64 : Shape := ⟨4, ![32, 256, 64, 64]⟩
abbrev S32x8 : Shape := ⟨2, ![32, 8]⟩
abbrev S32x264x64x64 : Shape := ⟨4, ![32, 264, 64, 64]⟩
abbrev S8x256x8x64 : Shape := ⟨4, ![8, 256, 8, 64]⟩
abbrev S8x8 : Shape := ⟨2, ![8, 8]⟩
abbrev S8x264x8x64 : Shape := ⟨4, ![8, 264, 8, 64]⟩
abbrev S8x8x1x1 : Shape := ⟨4, ![8, 8, 1, 1]⟩
abbrev S8x8x8x64 : Shape := ⟨4, ![8, 8, 8, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S32x8, .f32⟩
  | .hbm, ⟨2, _⟩ => ⟨S32x264x64x64, .f32⟩
  | .local _ .vmem, ⟨0, _⟩ => ⟨S8x256x8x64, .f32⟩
  | .local _ .vmem, ⟨1, _⟩ => ⟨S8x256x8x64, .f32⟩
  | .local _ .vmem, ⟨2, _⟩ => ⟨S8x8, .f32⟩
  | .local _ .vmem, ⟨3, _⟩ => ⟨S8x8, .f32⟩
  | .local _ .vmem, ⟨4, _⟩ => ⟨S8x264x8x64, .f32⟩
  | .local _ .vmem, ⟨5, _⟩ => ⟨S8x264x8x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x264x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x256x8x64_S8x256x8x64_0_0_0_0 : ∀ a, (![0, 0, 0, 0] : Fin 4 → Nat) a + S8x256x8x64.size a ≤ S8x256x8x64.size a
  h_S8x256x8x64 : 0 < S8x256x8x64.numel
  inb_S8x264x8x64_S8x256x8x64_0_0_0_0 : ∀ a, (![0, 0, 0, 0] : Fin 4 → Nat) a + S8x256x8x64.size a ≤ S8x264x8x64.size a
  inb_S8x8_S8x8_0_0 : ∀ a, (![0, 0] : Fin 2 → Nat) a + S8x8.size a ≤ S8x8.size a
  h_S8x8 : 0 < S8x8.numel
  shapeCasts_S8x8_S8x8x1x1 : S8x8.ShapeCasts S8x8x1x1
  shapeCasts_S8x8x1x1_S8x8x1x1 : S8x8x1x1.ShapeCasts S8x8x1x1
  broadcasts_S8x8x1x1_S8x8x8x64 : S8x8x1x1.Broadcasts S8x8x8x64
  inb_S8x264x8x64_S8x8x8x64_0_256_0_0 : ∀ a, (![0, 256, 0, 0] : Fin 4 → Nat) a + S8x8x8x64.size a ≤ S8x264x8x64.size a
  h_S8x8x8x64 : 0 < S8x8x8x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x64.size a ≤ S32x256x64x64.size a
  hwx0_0 : ∀ i : grid0.Coords, EltTy.bits .f32 = 32 ∨ (Rect.block (s := S32x256x64x64) S8x256x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S32x8.size a
  hwx0_1 : ∀ i : grid0.Coords, EltTy.bits .f32 = 32 ∨ (Rect.block (s := S32x8) S8x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x264x8x64.size a ≤ S32x264x64x64.size a
  hwx0_2 : ∀ i : grid0.Coords, EltTy.bits .f32 = 32 ∨ (Rect.block (s := S32x264x64x64) S8x264x8x64.size (cc0_transform_2 i) (hinb0_2 i)).WholeWords (EltTy.packing .f32)

variable [Facts₀]

abbrev win0_0 : Pipeline.Window sig grid0 :=
  Pipeline.Window.ofSpec (Memref.whole main_arg0) S8x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x264x8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x8 : Shape := ⟨2, ![32, 8]⟩
abbrev S32x8x1x1 : Shape := ⟨4, ![32, 8, 1, 1]⟩
abbrev S32x8x64x64 : Shape := ⟨4, ![32, 8, 64, 64]⟩
abbrev S32x264x64x64 : Shape := ⟨4, ![32, 264, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x8, .f32⟩
  | .hbm, ⟨2, _⟩ => ⟨S32x8x1x1, .f32⟩
  | .hbm, ⟨3, _⟩ => ⟨S32x8x64x64, .f32⟩
  | .hbm, ⟨4, _⟩ => ⟨S32x264x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S32x8_S32x8x1x1_0_1 : S32x8.BroadcastsInDim S32x8x1x1 (![0, 1] : Fin 2 → Fin S32x8x1x1.rank)
  bcast_S32x8x1x1_S32x8x64x64_0_1_2_3 : S32x8x1x1.BroadcastsInDim S32x8x64x64 (![0, 1, 2, 3] : Fin 4 → Fin S32x8x64x64.rank)
  concatenates_S32x256x64x64_S32x8x64x64_S32x264x64x64_d1 : Shape.Concatenates [S32x256x64x64, S32x8x64x64] S32x264x64x64 1

variable [Facts₀]

class Facts : Prop extends Facts₀ where

variable [Facts]
-- ==== Proof.LibJoinChannels.lean ====
/-
  A join along the channel axis, at any extents and over any value type: an array [B, C, H, W] followed, on axis 1, by
  K constant planes — entry (b, C + k, h, w) is y (b, k) of an array [B, K], whatever h and w. This is what
  jnp.concatenate([x, broadcast_to(y[:, :, None, None], (B, K, H, W))], axis=1) computes.

  `joinCh` states the array index by index; `joinCh_lo` and `joinCh_hi` name the argument entry an entry of the join
  is; `joinCh_block` says that a (sample, row) block of the join is the join of the arguments' blocks, because the
  channel axis is not tiled — the fact a kernel that tiles samples and rows rests on.
-/
import Idealize.ShloMosaic.Lib.ValueIdx

noncomputable section

namespace Cert.Joined

open Idealize.ShloMosaic Idealize.ShloMosaic.ValueIdx

variable {α : Type} {B C K N H W : Nat}

/-- The join along the channel axis: channel `ch < C` of sample `b` is x's channel `ch`; channel `C + k` is the
    constant plane `y (b, k)`. -/
def joinCh (hN : N = C + K) (x : (⟨4, ![B, C, H, W]⟩ : Shape).Idx → α) (y : (⟨2, ![B, K]⟩ : Shape).Idx → α) :
    (⟨4, ![B, N, H, W]⟩ : Shape).Idx → α := fun j =>
  if h : (j 1).val < C then x (ix4 (j 0) ⟨(j 1).val, h⟩ (j 2) (j 3))
  else y (ix2 (j 0) ⟨(j 1).val - C, by have hj : (j 1).val < N := (j 1).isLt; omega⟩)

/-- An entry of the join whose coordinates are those of an entry `p` of x is that entry. -/
theorem joinCh_lo (hN : N = C + K) (x : (⟨4, ![B, C, H, W]⟩ : Shape).Idx → α) (y : (⟨2, ![B, K]⟩ : Shape).Idx → α)
    (j : (⟨4, ![B, N, H, W]⟩ : Shape).Idx) (p : (⟨4, ![B, C, H, W]⟩ : Shape).Idx)
    (h0 : (j 0).val = (p 0).val) (h1 : (j 1).val = (p 1).val) (h2 : (j 2).val = (p 2).val) (h3 : (j 3).val = (p 3).val) :
    joinCh hN x y j = x p := by
  unfold joinCh
  have hp : (p 1).val < C := (p 1).isLt
  rw [dif_pos (by omega)]
  exact congrArg x (funext fun a => Fin.ext (match a with | ⟨0, _⟩ => h0 | ⟨1, _⟩ => h1 | ⟨2, _⟩ => h2 | ⟨3, _⟩ => h3))

/-- An entry of the join at sample `q 0` and channel `C + q 1` is `y q`, wherever it sits in the plane. -/
theorem joinCh_hi (hN : N = C + K) (x : (⟨4, ![B, C, H, W]⟩ : Shape).Idx → α) (y : (⟨2, ![B, K]⟩ : Shape).Idx → α)
    (j : (⟨4, ![B, N, H, W]⟩ : Shape).Idx) (q : (⟨2, ![B, K]⟩ : Shape).Idx)
    (h0 : (j 0).val = (q 0).val) (h1 : (j 1).val = C + (q 1).val) :
    joinCh hN x y j = y q := by
  unfold joinCh
  rw [dif_neg (by omega)]
  exact congrArg y (funext fun a => Fin.ext (match a with
    | ⟨0, _⟩ => h0
    | ⟨1, _⟩ => by show (j 1).val - C = (q 1).val; omega))

/-- A BLOCK OF THE JOIN IS THE JOIN OF THE BLOCKS. Tile the samples by `b` and the rows by `h`, all channels and lanes in
    each block: if `x0` is x's block at (o0, o2) and `y0` is y's block of samples at o0, then entry `j` of their join
    is entry (o0 + j 0, j 1, o2 + j 2, j 3) of the join of x and y. -/
theorem joinCh_block {b h : Nat} (hN : N = C + K)
    (x : (⟨4, ![B, C, H, W]⟩ : Shape).Idx → α) (y : (⟨2, ![B, K]⟩ : Shape).Idx → α)
    (x0 : (⟨4, ![b, C, h, W]⟩ : Shape).Idx → α) (y0 : (⟨2, ![b, K]⟩ : Shape).Idx → α) (o0 o2 : Nat)
    (hx : ∀ (p : (⟨4, ![b, C, h, W]⟩ : Shape).Idx) (P : (⟨4, ![B, C, H, W]⟩ : Shape).Idx),
      (P 0).val = o0 + (p 0).val → (P 1).val = (p 1).val → (P 2).val = o2 + (p 2).val → (P 3).val = (p 3).val → x0 p = x P)
    (hy : ∀ (q : (⟨2, ![b, K]⟩ : Shape).Idx) (Q : (⟨2, ![B, K]⟩ : Shape).Idx),
      (Q 0).val = o0 + (q 0).val → (Q 1).val = (q 1).val → y0 q = y Q)
    (j : (⟨4, ![b, N, h, W]⟩ : Shape).Idx) (i : (⟨4, ![B, N, H, W]⟩ : Shape).Idx)
    (h0 : (i 0).val = o0 + (j 0).val) (h1 : (i 1).val = (j 1).val) (h2 : (i 2).val = o2 + (j 2).val)
    (h3 : (i 3).val = (j 3).val) :
    joinCh hN x0 y0 j = joinCh hN x y i := by
  have hj1 : (j 1).val < N := (j 1).isLt
  have hi0 : (i 0).val < B := (i 0).isLt
  have hi2 : (i 2).val < H := (i 2).isLt
  by_cases hc : (j 1).val < C
  · rw [joinCh_lo hN x0 y0 j (ix4 (j 0) ⟨(j 1).val, hc⟩ (j 2) (j 3)) rfl rfl rfl rfl,
      joinCh_lo hN x y i (ix4 (i 0) ⟨(j 1).val, hc⟩ (i 2) (i 3)) rfl h1 rfl rfl]
    exact hx _ _ h0 rfl h2 h3
  · have hk : (j 1).val - C < K := by omega
    rw [joinCh_hi hN x0 y0 j (ix2 (j 0) ⟨(j 1).val - C, hk⟩) rfl (by show (j 1).val = C + ((j 1).val - C); omega),
      joinCh_hi hN x y i (ix2 (i 0) ⟨(j 1).val - C, hk⟩) rfl (by show (i 1).val = C + ((j 1).val - C); omega)]
    exact hy _ _ h0 rfl

end Cert.Joined

end
-- ==== Proof.Joined.lean ====
/-
  The array both programs compute. The kernel's result and the reference's result are f32[32, 264, 64, 64]; its entry
  (b, ch, h, w) is x (b, ch, h, w) on the first 256 channels and the per-(sample, channel) scalar y (b, ch − 256), spread
  over both spatial axes, on the last 8: the join along the channel axis (`joinCh`) at these extents. Nothing is computed
  with the values: every entry of the result is ONE entry of an argument, so everything here holds over any value type
  and nothing needs finiteness.

  `concat_spread_eq` reads the reference's three host operations — the broadcasts [32, 8] → [32, 8, 1, 1] →
  [32, 8, 64, 64] and the concatenation along axis 1 — at an index and finds the join.
-/
import proofs.«173673_j40398462386567_1_alg».proof.Proof.LibJoinChannels
import Idealize.ShloMosaic.Lib.ValueIdx
import Idealize.ShloMosaic.Lib.Pipeline.Value

noncomputable section

namespace Cert.Joined

open Idealize.ShloMosaic Idealize.ShloMosaic.ValueIdx

variable {α : Type}

/-! ## The shapes of this certificate -/

/-- x's shape, -/
abbrev SX : Shape := ⟨4, ![32, 256, 64, 64]⟩
/-- y's, -/
abbrev SY : Shape := ⟨2, ![32, 8]⟩
/-- y with two unit spatial axes, -/
abbrev SY1 : Shape := ⟨4, ![32, 8, 1, 1]⟩
/-- y spread over the spatial axes, -/
abbrev SYB : Shape := ⟨4, ![32, 8, 64, 64]⟩
/-- and the result's. -/
abbrev SO : Shape := ⟨4, ![32, 264, 64, 64]⟩

/-- The result: x's 256 channels, then y's 8 constant planes. -/
abbrev joined (x : SX.Idx → α) (y : SY.Idx → α) : SO.Idx → α :=
  joinCh (B := 32) (C := 256) (K := 8) (N := 264) (H := 64) (W := 64) rfl x y

/-- The reference's term is the joined array: below channel 256 the concatenation reads its first operand at the same
    coordinates; from 256 on it reads the second at channel `ch − 256`, and each broadcast reads its operand at the
    coordinates it keeps (the spatial ones dropped, the unit axes at 0). -/
theorem concat_spread_eq (x : SX.Idx → α) (y : SY.Idx → α)
    (h1 : SY.BroadcastsInDim SY1 (![0, 1] : Fin 2 → Fin SY1.rank))
    (h2 : SY1.BroadcastsInDim SYB (![0, 1, 2, 3] : Fin 4 → Fin SYB.rank))
    (h3 : Shape.Concatenates [SX, SYB] SO 1) :
    concatenate SO 1 [⟨SX, x⟩, ⟨SYB, broadcastInDim SYB ![0, 1, 2, 3] h2 (broadcastInDim SY1 ![0, 1] h1 y)⟩] h3
      = joined x y := by
  funext j
  have hj : (j 1).val < 264 := (j 1).isLt
  by_cases h : (j 1).val < 256
  · refine Eq.trans ?_ (joinCh_lo rfl x y j (ix4 (j 0) ⟨(j 1).val, h⟩ (j 2) (j 3)) rfl rfl rfl rfl).symm
    exact concatenate_pair_apply_left (1 : Fin SO.rank) x _ h3 j rfl (ix4 (j 0) ⟨(j 1).val, h⟩ (j 2) (j 3))
      (fun b => match b with | ⟨0, _⟩ => rfl | ⟨1, _⟩ => rfl | ⟨2, _⟩ => rfl | ⟨3, _⟩ => rfl)
  · have hk : (j 1).val - 256 < 8 := by omega
    refine Eq.trans ?_ (joinCh_hi rfl x y j (ix2 (j 0) ⟨(j 1).val - 256, hk⟩) rfl
      (by show (j 1).val = 256 + ((j 1).val - 256); omega)).symm
    refine (concatenate_pair_apply_right (1 : Fin SO.rank) x _ h3 j rfl rfl
      (ix4 (j 0) ⟨(j 1).val - 256, hk⟩ (j 2) (j 3)) ?_ ?_).trans ?_
    · intro b hb
      match b with
      | ⟨0, _⟩ => rfl
      | ⟨1, _⟩ => exact absurd rfl hb
      | ⟨2, _⟩ => rfl
      | ⟨3, _⟩ => rfl
    · show (j 1).val - 256 + 256 = (j 1).val
      omega
    · refine (broadcastInDim_apply _ h2 _ (ix4 (j 0) ⟨(j 1).val - 256, hk⟩ (j 2) (j 3))
        (ix4 (j 0) ⟨(j 1).val - 256, hk⟩ ⟨0, Nat.one_pos⟩ ⟨0, Nat.one_pos⟩) (fun a => match a with
          | ⟨0, _⟩ => by show (j 0).val = if (32 : Nat) = 1 then 0 else (j 0).val; rw [if_neg (by decide)]
          | ⟨1, _⟩ => by show (j 1).val - 256 = if (8 : Nat) = 1 then 0 else (j 1).val - 256; rw [if_neg (by decide)]
          | ⟨2, _⟩ => by show 0 = if (1 : Nat) = 1 then 0 else (j 2).val; rw [if_pos rfl]
          | ⟨3, _⟩ => by show 0 = if (1 : Nat) = 1 then 0 else (j 3).val; rw [if_pos rfl])).trans ?_
      exact broadcastInDim_apply _ h1 y (ix4 (j 0) ⟨(j 1).val - 256, hk⟩ ⟨0, Nat.one_pos⟩ ⟨0, Nat.one_pos⟩)
        (ix2 (j 0) ⟨(j 1).val - 256, hk⟩) (fun a => match a with
          | ⟨0, _⟩ => by show (j 0).val = if (32 : Nat) = 1 then 0 else (j 0).val; rw [if_neg (by decide)]
          | ⟨1, _⟩ => by show (j 1).val - 256 = if (8 : Nat) = 1 then 0 else (j 1).val - 256; rw [if_neg (by decide)])

end Cert.Joined

end
-- ==== Proof.JoinValue.lean ====
/-
  The kernel's result array, read off its run. The grid has 4 × 8 points; point (i, j) stages samples 8i … 8i+7 and rows
  8j … 8j+7 of x (all 256 channels, all 64 lanes), samples 8i … 8i+7 of y, and writes back the same samples and rows of the
  result (all 264 channels). The body fills its output block with two stores: x's block into channels 0 … 255, and y's
  block — reshaped [8, 8] → [8, 8, 1, 1] and spread over the block's 8 rows and 64 lanes — into channels 256 … 263. So the
  block it leaves is the join of the two input blocks (`out_block`), which is the block of the join of x and y
  (`Joined.joinCh_block`: the channel axis is not tiled), and the 32 blocks tile the result: the array ends at the join
  (`final`, `run`). Every step holds at any value type.
-/
import proofs.«173673_j40398462386567_1_alg».proof.Proof.Gen.KernelIdeal.Value
import proofs.«173673_j40398462386567_1_alg».proof.Proof.Joined
import Idealize.ShloMosaic.Lib.ValueIdx
import Idealize.ShloMosaic.Lib.Pipeline.Value
import Idealize.ShloMosaic.Lib.Tactic

set_option maxRecDepth 16384

noncomputable section

namespace Cert.KernelIdeal.JoinValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open Cert.Joined

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

/-! ## One point: the block the body leaves -/

/-- The second store's payload at an index: y's block [8, 8] given two unit axes and spread over rows and lanes reads
    (sample, channel) of the block, whatever the row and the lane. -/
theorem spread_apply (v : Vec F S8x8 .f32) (q : S8x8x8x64.Idx) : k0_pay1 v q = v (ix2 (q 0) (q 1)) := by
  unfold k0_pay1
  refine (broadcastTo_apply _ broadcasts_S8x8x1x1_S8x8x8x64 q (ix4 (q 0) (q 1) ⟨0, Nat.one_pos⟩ ⟨0, Nat.one_pos⟩)
    (fun a => match a with
      | ⟨0, _⟩ => by show (q 0).val = if (8 : Nat) = 1 then 0 else (q 0).val; rw [if_neg (by decide)]
      | ⟨1, _⟩ => by show (q 1).val = if (8 : Nat) = 1 then 0 else (q 1).val; rw [if_neg (by decide)]
      | ⟨2, _⟩ => by show 0 = if (1 : Nat) = 1 then 0 else (q 2).val; rw [if_pos rfl]
      | ⟨3, _⟩ => by show 0 = if (1 : Nat) = 1 then 0 else (q 3).val; rw [if_pos rfl])).trans ?_
  rw [shapeCast_self]
  exact shapeCast_apply v shapeCasts_S8x8_S8x8x1x1 _ (ix2 (q 0) (q 1)) (by
    rw [Shape.rowMajor_val_two, Shape.rowMajor_val_four]
    show (q 0).val * 8 + (q 1).val = (((q 0).val * 8 + (q 1).val) * 1 + 0) * 1 + 0
    omega)

/-- The join of the two input blocks: what the body leaves in its output block. -/
abbrev blockJoin (x0 : Vec F S8x256x8x64 .f32) (x1 : Vec F S8x8 .f32) : Vec F S8x264x8x64 .f32 :=
  joinCh (B := 8) (C := 256) (K := 8) (N := 264) (H := 8) (W := 64) rfl x0 x1

/-- THE BODY'S BLOCK. Its two stores' rectangles — channels 0 … 255 and channels 256 … 263 of the whole block — tile the
    block, and each payload is the join there: the first is x's block at the same coordinates, the second y's block at
    (sample, channel − 256). -/
theorem out_block (c : Dev nD) (i : grid0.Coords) (a2 : Memref sig .tc .vmem S8x256x8x64 .f32) (h2 : a2.IsWhole)
    (a3 : Memref sig .tc .vmem S8x8 .f32) (h3 : a3.IsWhole) (a4 : Memref sig .tc .vmem S8x264x8x64 .f32) (h4 : a4.IsWhole)
    (x0 : Vec F S8x256x8x64 .f32) (x1 : Vec F S8x8 .f32) :
    out0_A_2 c i a2 h2 a3 h3 a4 h4 x0 x1 = blockJoin x0 x1 := by
  unfold out0_A_2
  rw [View.read_writes_eq_canon _ _ _ (cover0_A_2 c i a2 h2 a3 h3 a4 h4 x0 x1)]
  funext k
  refine View.canon_apply_of_pieces (blockJoin x0 x1) _ ?_ k (cover0_A_2 c i a2 h2 a3 h3 a4 h4 x0 x1 k)
  unfold kernelRun0_A
  dsimp only
  sl_unfold_words
  refine List.forall_mem_cons.mpr ⟨fun q => ?_, List.forall_mem_cons.mpr ⟨fun p => ?_, fun _ h => absurd h List.not_mem_nil⟩⟩
  · simp only [View.readAt_eq_ld, h3.read_unread, View.ld_unit_zero (S := S8x8) hz2]
    rw [spread_apply]
    refine (joinCh_hi rfl x0 x1 _ (ix2 (q 0) (q 1)) ?_ ?_).symm
    · show 0 + 1 * (q 0).val = (q 0).val; omega
    · show 256 + 1 * (q 1).val = 256 + (q 1).val; omega
  · simp only [View.readAt_eq_ld, h2.read_unread]
    exact (joinCh_lo rfl x0 x1 _ _ rfl rfl rfl rfl).symm

/-! ## The grid: where each window's block sits -/

/-- The printed index maps, decided over the 32 points: x's and the result's blocks move together on the sample and row
    axes and stay at 0 on the channel and lane axes; y's block follows the sample axis. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 2) = win0_2.index t (0 : Fin 4) ∧ win0_1.index t (1 : Fin 2) = 0
    ∧ win0_2.index t (1 : Fin 4) = 0 ∧ win0_2.index t (3 : Fin 4) = 0 :=
  (by decide +kernel : ∀ t : Fin grid0.N, _)

/-- Every (sample block, row block) is some point's. -/
theorem idx_onto : ∀ (q0 : Fin 4) (q2 : Fin 8), ∃ t : Fin cfg0.N, win0_2.index t = ![q0.val, 0, q2.val, 0] :=
  (by decide +kernel : ∀ (q0 : Fin 4) (q2 : Fin 8), ∃ t : Fin grid0.N, win0_2.index t = ![q0.val, 0, q2.val, 0])

/-- WHAT POINT `t` WRITES BACK is block `t` of the join of the argument arrays. -/
theorem flushed_eq (c : Dev nD) (t : Fin cfg0.N) :
    (dats m 0 c).flushed 2 t
      = ((cfg0.win 2).blk t).view.read (Elt F) (joined (V m c main_arg0) (V m c main_arg1)) := by
  rw [Value.flushed2_A, out_block]
  obtain ⟨e0, e1, e2, e3, e4, e5, e6, e7⟩ := idx_facts t
  funext j
  show blockJoin (iblk m c 0 t) (iblk m c 1 t) j
    = joined (V m c main_arg0) (V m c main_arg1) (((cfg0.win 2).blk t).view.emb j)
  refine joinCh_block rfl (V m c main_arg0) (V m c main_arg1) (iblk m c 0 t) (iblk m c 1 t)
    (win0_2.index t (0 : Fin 4) * 8) (win0_2.index t (2 : Fin 4) * 8) ?_ ?_ j _ ?_ ?_ ?_ ?_
  · intro p P h0 h1 h2 h3
    show V m c main_arg0 (((cfg0.win 0).blk t).view.emb p) = V m c main_arg0 P
    refine congrArg (V m c main_arg0) (funext fun a => Fin.ext ?_)
    match a with
    | ⟨0, _⟩ => show win0_0.index t (0 : Fin 4) * 8 + 1 * (p 0).val = (P 0).val; omega
    | ⟨1, _⟩ => show win0_0.index t (1 : Fin 4) * 256 + 1 * (p 1).val = (P 1).val; omega
    | ⟨2, _⟩ => show win0_0.index t (2 : Fin 4) * 8 + 1 * (p 2).val = (P 2).val; omega
    | ⟨3, _⟩ => show win0_0.index t (3 : Fin 4) * 64 + 1 * (p 3).val = (P 3).val; omega
  · intro q Q h0 h1
    show V m c main_arg1 (((cfg0.win 1).blk t).view.emb q) = V m c main_arg1 Q
    refine congrArg (V m c main_arg1) (funext fun a => Fin.ext ?_)
    match a with
    | ⟨0, _⟩ => show win0_1.index t (0 : Fin 2) * 8 + 1 * (q 0).val = (Q 0).val; omega
    | ⟨1, _⟩ => show win0_1.index t (1 : Fin 2) * 8 + 1 * (q 1).val = (Q 1).val; omega
  · show win0_2.index t (0 : Fin 4) * 8 + 1 * (j 0).val = win0_2.index t (0 : Fin 4) * 8 + (j 0).val; omega
  · show win0_2.index t (1 : Fin 4) * 264 + 1 * (j 1).val = (j 1).val; omega
  · show win0_2.index t (2 : Fin 4) * 8 + 1 * (j 2).val = win0_2.index t (2 : Fin 4) * 8 + (j 2).val; omega
  · show win0_2.index t (3 : Fin 4) * 64 + 1 * (j 3).val = (j 3).val; omega

/-! ## The whole array -/

/-- An index of the result is in point `t`'s block iff each coordinate is in the block's range on its axis. -/
theorem mem_blk (t : Fin cfg0.N) (i : S32x264x64x64.Idx) :
    i ∈ ((cfg0.win 2).blk t).view.set ↔ ∀ a : Fin 4, win0_2.index t a * S8x264x8x64.size a ≤ (i a).val
      ∧ (i a).val < win0_2.index t a * S8x264x8x64.size a + S8x264x8x64.size a := by
  show i ∈ ((View.whole main_v0).slice (win0_2.rect t)).set ↔ _
  rw [View.set_slice_whole, Rect.mem_set_unit]
  exact Iff.rfl

/-- The 32 blocks tile the result: entry (b, ch, h, w) is in the block of the point at (b / 8, h / 8). -/
theorem covered (i : S32x264x64x64.Idx) :
    ∃ t : Fin cfg0.N, (cfg0.win 2).flush t = true ∧ i ∈ ((cfg0.win 2).blk t).view.set := by
  have hi0 : (i 0).val < 32 := (i 0).isLt
  have hi1 : (i 1).val < 264 := (i 1).isLt
  have hi2 : (i 2).val < 64 := (i 2).isLt
  have hi3 : (i 3).val < 64 := (i 3).isLt
  obtain ⟨t, ht⟩ := idx_onto ⟨(i 0).val / 8, by omega⟩ ⟨(i 2).val / 8, by omega⟩
  have q0 : win0_2.index t (0 : Fin 4) = (i 0).val / 8 := congrFun ht 0
  have q1 : win0_2.index t (1 : Fin 4) = 0 := congrFun ht 1
  have q2 : win0_2.index t (2 : Fin 4) = (i 2).val / 8 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 264 ≤ (i 1).val ∧ (i 1).val < win0_2.index t (1 : Fin 4) * 264 + 264; omega
  | ⟨2, _⟩ => show win0_2.index t (2 : Fin 4) * 8 ≤ (i 2).val ∧ (i 2).val < win0_2.index t (2 : Fin 4) * 8 + 8; omega
  | ⟨3, _⟩ => show win0_2.index t (3 : Fin 4) * 64 ≤ (i 3).val ∧ (i 3).val < win0_2.index t (3 : Fin 4) * 64 + 64; omega

/-- THE RESULT ARRAY after the run is the join of the argument arrays. -/
theorem final (c : Dev nD) :
    (dats m 0 c).arrAt 2 cfg0.N
      = joined (m ((c : Thread nD τ).loc main_arg0)) (m ((c : Thread nD τ).loc main_arg1)) :=
  (dats m 0 c).arrAt_eq_of_cover 2 (joined (V m c main_arg0) (V m c main_arg1)) (fun t _ => flushed_eq m c t) covered

/-- The run, read: the result at the join of the arguments, the arguments unchanged. -/
theorem run : θ_run defs (onTc (τ := τ) (main (F := F))) ⟨m, fun _ => 0, ρ⟩ fun r => ∀ c : Dev nD,
      r.2.mem ((c : Thread nD τ).loc main_v0)
        = joined (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.JoinValue

end
-- ==== Proof.lean ====
/-
  The certificate of a channel-wise join. The kernel writes, tile by tile over a 4 × 8 grid of (8 samples, 8 rows), the
  array f32[32, 264, 64, 64] whose first 256 channels are x and whose last 8 channels are the per-(sample, channel)
  scalars of y spread over the two spatial axes; the reference builds the same array on the host by two broadcasts
  and a concatenation along axis 1. Every entry of the result is one entry of x or of y, copied: no arithmetic, so the two
  results are equal at any value type, the extended reals among them, and the precondition is never opened.

    frames      — the kernel's two frames are the generated ones; the reference's is its generated run, result dropped.
    preserves   — the idealization rewrote nothing: the conjunct is `True`.
    algebraic   — the kernel's result array ends at the join of its arguments (Proof/JoinValue.lean: the body's block is
                  the join of the input blocks, a block of the join is the join of the blocks — Proof/LibJoinChannels.lean —,
                  the 32 blocks tile the array), and the reference's composed term is that join read index by index
                  (Proof/Joined.lean).
-/
import proofs.«173673_j40398462386567_1_alg».proof.Defs
import proofs.«173673_j40398462386567_1_alg».proof.Proof.Gen.Kernel
import proofs.«173673_j40398462386567_1_alg».proof.Proof.Gen.Kernel.Skeleton
import proofs.«173673_j40398462386567_1_alg».proof.Proof.Gen.Kernel.Launch
import proofs.«173673_j40398462386567_1_alg».proof.Proof.Gen.Kernel.Points
import proofs.«173673_j40398462386567_1_alg».proof.Proof.Gen.Kernel.Frame
import proofs.«173673_j40398462386567_1_alg».proof.Proof.Gen.KernelIdeal
import proofs.«173673_j40398462386567_1_alg».proof.Proof.Gen.KernelIdeal.Skeleton
import proofs.«173673_j40398462386567_1_alg».proof.Proof.Gen.KernelIdeal.Launch
import proofs.«173673_j40398462386567_1_alg».proof.Proof.Gen.KernelIdeal.Points
import proofs.«173673_j40398462386567_1_alg».proof.Proof.Gen.KernelIdeal.Frame
import proofs.«173673_j40398462386567_1_alg».proof.Proof.Gen.ReferenceIdeal
import proofs.«173673_j40398462386567_1_alg».proof.Proof.Gen.Pre_finite_inputs
import proofs.«173673_j40398462386567_1_alg».proof.Proof.Gen.KernelIdeal.Value
import proofs.«173673_j40398462386567_1_alg».proof.Proof.Gen.ReferenceIdeal.Run
import proofs.«173673_j40398462386567_1_alg».proof.Proof.Joined
import proofs.«173673_j40398462386567_1_alg».proof.Proof.JoinValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's three host operations run and write only their own results. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the join of x and y: the kernel's result array by its 32 blocks,
    the reference's by its concatenation of x with the spread y. -/
theorem algebraic : Cert.algebraic_KernelIdeal_ReferenceIdeal := by
  intro m ρ m' ρ' _ hagree
  refine ⟨_, Cert.KernelIdeal.JoinValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Joined.concat_spread_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
